-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 94
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x64, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x64, .f32⟩
  | .hbm, ⟨84, _⟩ => ⟨S850000x1, .f32⟩
  | .hbm, ⟨85, _⟩ => ⟨S850000x64, .f32⟩
  | .hbm, ⟨86, _⟩ => ⟨S850000x64, .f32⟩
  | .hbm, ⟨87, _⟩ => ⟨S_, .f32⟩
  | .hbm, ⟨88, _⟩ => ⟨S50000x64, .f32⟩
  | .hbm, ⟨89, _⟩ => ⟨S850000x1, .i32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x64, .f32⟩
  | .hbm, ⟨75, _⟩ => ⟨S_, .f32⟩
  | .hbm, ⟨76, _⟩ => ⟨S850000, .f32⟩
  | .hbm, ⟨77, _⟩ => ⟨S_, .f32⟩
  | .hbm, ⟨78, _⟩ => ⟨S50000, .f32⟩
  | .hbm, ⟨79, _⟩ => ⟨S850000x1, .i32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .i1⟩
  | .hbm, ⟨84, _⟩ => ⟨S50000, .f32⟩
  | .hbm, ⟨85, _⟩ => ⟨S_, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000, .f32⟩
  | .hbm, ⟨107, _⟩ => ⟨S850000, .f32⟩
  | .hbm, ⟨108, _⟩ => ⟨S_, .i32⟩
  | .hbm, ⟨109, _⟩ => ⟨S850000, .i32⟩
  | .hbm, ⟨110, _⟩ => ⟨S850000, .i1⟩
  | .hbm, ⟨111, _⟩ => ⟨S_, .i32⟩
  | .hbm, ⟨112, _⟩ => ⟨S850000, .i32⟩
  | .hbm, ⟨113, _⟩ => ⟨S850000, .i32⟩
  | .hbm, ⟨114, _⟩ => ⟨S850000, .i32⟩
  | .hbm, ⟨115, _⟩ => ⟨S850000x1, .i32⟩
  | .hbm, ⟨116, _⟩ => ⟨S850000x64, .f32⟩
  | .hbm, ⟨117, _⟩ => ⟨S850000x1, .f32⟩
  | .hbm, ⟨118, _⟩ => ⟨S850000x64, .f32⟩
  | .hbm, ⟨119, _⟩ => ⟨S850000x64, .f32⟩
  | .hbm, ⟨120, _⟩ => ⟨S_, .f32⟩
  | .hbm, ⟨121, _⟩ => ⟨S50000x64, .f32⟩
  | .hbm, ⟨122, _⟩ => ⟨S850000x1, .i32⟩
  | .hbm, ⟨123, _⟩ => ⟨S50000x64, .f32⟩
  | .hbm, ⟨124, _⟩ => ⟨S1x64, .f32⟩
  | .hbm, ⟨125, _⟩ => ⟨S50000x64, .f32⟩
  | .hbm, ⟨126, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_19 : Ref sig .tc := ⟨.hbm, 108, rfl⟩
abbrev main_v77 : Ref sig .tc := ⟨.hbm, 109, rfl⟩
abbrev main_v78 : Ref sig .tc := ⟨.hbm, 110, rfl⟩
abbrev main_c_20 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_21 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The graph-convolution network both programs compute, as one function of the six argument arrays.

  With n = 50000 nodes and the 800000 given edges followed by the n self loops (850000 edges in all):
    src, dst   the edge list's two rows, each followed by 0 … n-1;
    deg        deg[v] = the number of edges whose dst is v (a scatter-add of ones);
    dinv       1/sqrt(deg) where deg > 0, else 0;
    norm       norm[e] = dinv[src e] · dinv[dst e]   (a negative index is first moved up by n);
    layer      layer(H, b)[v, j] = Σ over edges e with dst e = v of H[src e, j] · norm[e], plus b[j];
    sigmoid    1 / (1 + exp(-z)), entry by entry.
  The network is  layer(sigmoid(layer(x·W0, b0))·W1, b1).  The two dense products are parameters here
  (`mmA`, `mmB`): every other operation is spelt once, and both programs apply exactly these.
-/
import proofs.«173309_j15006615732583_1_alg».proof.KernelIdeal

noncomputable section

namespace Cert.GCN

open Idealize.ShloMosaic Cert.KernelIdeal Cert.KernelIdeal.Facts₀

variable {F : FTy → Type} [FloatOps F] [Cert.KernelIdeal.Facts₀]

/-- The edge array, a whole-number array of two rows. -/
abbrev Edges (F : FTy → Type) [FloatOps F] := (⟨S2x800000, .i32⟩ : BufTy).Contents (Elt F)
/-- One whole number per edge (self loops included). -/
abbrev EdgeIdx (F : FTy → Type) [FloatOps F] := (⟨S850000, .i32⟩ : BufTy).Contents (Elt F)
/-- One float per edge. -/
abbrev EdgeVal (F : FTy → Type) [FloatOps F] := (⟨S850000, .f32⟩ : BufTy).Contents (Elt F)

/-- Row 0 of the edge array followed by 0 … n-1: every edge's source node. -/
def src (E : Edges F) : EdgeIdx F :=
  concatenate S850000 0 [⟨S800000, (shapeCast _ (extractStridedSlice S1x800000 ![0, 0] E slices_S2x800000_S1x800000_0_0) shapeCasts_S1x800000_S800000)⟩, ⟨S50000, (iotaInDim S50000 32 0)⟩] concatenates_S800000_S50000_S850000_d0

/-- Row 1 of the edge array followed by 0 … n-1: every edge's destination node. -/
def dst (E : Edges F) : EdgeIdx F :=
  concatenate S850000 0 [⟨S800000, (shapeCast _ (extractStridedSlice S1x800000 ![1, 0] E slices_S2x800000_S1x800000_1_0) shapeCasts_S1x800000_S800000)⟩, ⟨S50000, (iotaInDim S50000 32 0)⟩] concatenates_S800000_S50000_S850000_d0

/-- A negative node index counts from the end: n is added to it. -/
def wrap (s : EdgeIdx F) : EdgeIdx F :=
  select (cmpi .slt s (broadcastInDim S850000 ![] bcast_S_S850000 (constantI S_ 32 0#32))) (addi s (broadcastInDim S850000 ![] bcast_S_S850000 (constantI S_ 32 50000#32))) s

/-- An index vector as the one-column index array a gather or a scatter takes. -/
def col (s : EdgeIdx F) : (⟨S850000x1, .i32⟩ : BufTy).Contents (Elt F) :=
  broadcastInDim S850000x1 ![0] bcast_S850000_S850000x1_0 s

/-- deg[v]: one added at dst e for every edge e, from zero. -/
def deg (E : Edges F) : (⟨S50000, .f32⟩ : BufTy).Contents (Elt F) :=
  Host.scatterAdd scatter_S50000_S850000x1_S850000_n_0_0_1 (broadcastInDim S50000 ![] bcast_S_S50000 (constant S_ .f32 0x00000000#32)) (col (dst E)) (broadcastInDim S850000 ![] bcast_S_S850000 (constant S_ .f32 0x3F800000#32))

/-- dinv[v] = 1/sqrt(deg[v]) where deg[v] > 0, else 0. -/
def dinv (E : Edges F) : (⟨S50000, .f32⟩ : BufTy).Contents (Elt F) :=
  select (cmpf .ogt (deg E) (broadcastInDim S50000 ![] bcast_S_S50000 (constant S_ .f32 0x00000000#32))) (Host.rsqrt (deg E)) (broadcastInDim S50000 ![] bcast_S_S50000 (id (constant S_ .f32 0x00000000#32)))

/-- norm[e] = dinv[src e] · dinv[dst e]. -/
def norm (E : Edges F) : EdgeVal F :=
  mulf (Host.gather gather_S50000_S850000x1_S850000_n_0_n_n_0_1_1 (dinv E) (col (wrap (src E)))) (Host.gather gather_S50000_S850000x1_S850000_n_0_n_n_0_1_1 (dinv E) (col (wrap (dst E))))

/-- One layer's aggregation at 128 features: row src e of `H` times w[e], added into row dst e, for every edge e,
    from zero; then the bias `b` on every row. `s`, `d` are the edges' source and destination nodes. -/
def layer128 (H : (⟨S50000x128, .f32⟩ : BufTy).Contents (Elt F)) (s d : EdgeIdx F) (w : EdgeVal F)
    (b : (⟨S128, .f32⟩ : BufTy).Contents (Elt F)) : (⟨S50000x128, .f32⟩ : BufTy).Contents (Elt F) :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 H (broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s))) (broadcastInDim S850000x128 ![0, 1] bcast_S850000x1_S850000x128_0_1 (broadcastInDim S850000x1 ![0] bcast_S850000_S850000x1_0 w)))) (broadcastInDim S50000x128 ![0, 1] bcast_S1x128_S50000x128_0_1 (broadcastInDim S1x128 ![1] bcast_S128_S1x128_1 b))

/-- The same aggregation at 64 features. -/
def layer64 (H : (⟨S50000x64, .f32⟩ : BufTy).Contents (Elt F)) (s d : EdgeIdx F) (w : EdgeVal F)
    (b : (⟨S64, .f32⟩ : BufTy).Contents (Elt F)) : (⟨S50000x64, .f32⟩ : BufTy).Contents (Elt F) :=
  addf (Host.scatterAdd scatter_S50000x64_S850000x1_S850000x64_1_0_0_1 (broadcastInDim S50000x64 ![] bcast_S_S50000x64 (constant S_ .f32 0x00000000#32)) (broadcastInDim S850000x1 ![0] bcast_S850000_S850000x1_0 d) (mulf (Host.gather gather_S50000x64_S850000x1_S850000x64_1_0_n_n_0_1_164 H (broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s))) (broadcastInDim S850000x64 ![0, 1] bcast_S850000x1_S850000x64_0_1 (broadcastInDim S850000x1 ![0] bcast_S850000_S850000x1_0 w)))) (broadcastInDim S50000x64 ![0, 1] bcast_S1x64_S50000x64_0_1 (broadcastInDim S1x64 ![1] bcast_S64_S1x64_1 b))

/-- 1 / (1 + exp(-z)), entry by entry. -/
def sigmoid (z : (⟨S50000x128, .f32⟩ : BufTy).Contents (Elt F)) : (⟨S50000x128, .f32⟩ : BufTy).Contents (Elt F) :=
  Host.divf (broadcastInDim S50000x128 ![] bcast_S_S50000x128 (constant S_ .f32 0x3F800000#32)) (addf (broadcastInDim S50000x128 ![] bcast_S_S50000x128 (constant S_ .f32 0x3F800000#32)) (Host.exp (Host.negf z)))

/-- The network over two given dense products `mmA : [n,128]·[128,128]` and `mmB : [n,128]·[128,64]`, with the
    edges' sources, destinations and weights given: layer(sigmoid(layer(mmA x W0, b0)) · W1, b1). -/
def netWith (mmA : (⟨S50000x128, .f32⟩ : BufTy).Contents (Elt F) → (⟨S128x128, .f32⟩ : BufTy).Contents (Elt F) → (⟨S50000x128, .f32⟩ : BufTy).Contents (Elt F))
    (mmB : (⟨S50000x128, .f32⟩ : BufTy).Contents (Elt F) → (⟨S128x64, .f32⟩ : BufTy).Contents (Elt F) → (⟨S50000x64, .f32⟩ : BufTy).Contents (Elt F))
    (x : (⟨S50000x128, .f32⟩ : BufTy).Contents (Elt F)) (s d : EdgeIdx F) (w : EdgeVal F)
    (W0 : (⟨S128x128, .f32⟩ : BufTy).Contents (Elt F)) (b0 : (⟨S128, .f32⟩ : BufTy).Contents (Elt F))
    (W1 : (⟨S128x64, .f32⟩ : BufTy).Contents (Elt F)) (b1 : (⟨S64, .f32⟩ : BufTy).Contents (Elt F)) :
    (⟨S50000x64, .f32⟩ : BufTy).Contents (Elt F) :=
  layer64 (mmB (sigmoid (layer128 (mmA x W0) s d w b0)) W1) s d w b1

end Cert.GCN

end
-- ==== Proof.RefValue.lean ====
/-
  The reference's result is the network of the specification.

  The reference's run ends with its result at one composed term of the six argument arrays: the host operations
  of both graph-convolution layers written out in full, the edge weights computed once per layer. Written out, that term
  is the specification's `netWith` over the host's two matrix products, at the edge sources, destinations and weights the
  specification computes from the edge array: the same operations in the same order, so the two terms are one (they
  differ only in where a shape relation's witness comes from, and in the weights' term being repeated).
-/
import proofs.«173309_j15006615732583_1_alg».proof.Proof.ReferenceRun
import proofs.«173309_j15006615732583_1_alg».proof.Proof.Gen.KernelIdeal
import proofs.«173309_j15006615732583_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The reference's composed result term is the network over the host's two matrix products. -/
theorem result_eq (m : (ℓ : Loc nD τ sig) → Buf (Elt F) ℓ) (c : Dev nD) :
    Cert.ReferenceIdeal.Value.res_main_v92 m c
      = Cert.GCN.netWith
          (fun l r => Host.dotGeneral dot_S50000x128_S128x128_S50000x128_1_0_0_1_n_n none l r)
          (fun l r => Host.dotGeneral dot_S50000x128_S128x64_S50000x64_1_0_0_1_n_n none l r)
          (m ((c.tc : Thread nD τ).loc main_arg0))
          (Cert.GCN.src (m ((c.tc : Thread nD τ).loc main_arg1)))
          (Cert.GCN.dst (m ((c.tc : Thread nD τ).loc main_arg1)))
          (Cert.GCN.norm (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v92
  rfl

end Cert.ReferenceIdeal.RefValue

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.LibHostDot.lean ====
/-
  General lemma: the host's plain matrix product read at an index, at the ideal instance.

  * `Host.dotGeneral` of `[M,K]·[K,N]` (the left operand's columns contracted with the right operand's rows, no
    batch axis), at `(p, c)`, is `Σ k, lhs (p, k) · rhs (k, c)` — the same sum a kernel's matrix product into a zero
    accumulator computes, so the two agree entry by entry whatever the tiling of the rows.
-/
import Idealize.ShloMosaic.PureOps.Ideal.Laws
import Idealize.ShloMosaic.Lib.ValueIdx

noncomputable section

namespace Cert.HostDot

open Idealize.ShloMosaic Idealize.ShloMosaic.ValueIdx

/-- The host's plain product `[M,K]·[K,N]`, read at `(p, c)`: the sum over `k` of `lhs (p, k) · rhs (k, c)`. -/
theorem hostDot_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    Host.dotGeneral (⟨[1], [0], [0], [1], [], [], wf⟩ : DotDims ⟨2, ![M, K]⟩ ⟨2, ![K, N]⟩ ⟨2, ![M, N]⟩) prec lhs rhs (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  show FloatOps.dotGeneral D prec .single lhs rhs (ix2 p c) = _
  rw [Ideal.dotGeneral_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.HostDot

end
-- ==== Proof.Region0.lean ====
/-
  Region 0 (the first dense product) as one function of the arrays it is entered with.

  The pipeline walks the 50000 rows in 10 blocks of 5000. At block t the body multiplies rows 5000·t … 5000·t+4999 of the
  left array by the whole [128, 128] right array into a zero accumulator (the operands' change of format is the identity
  on the extended reals), and writes the [5000, 128] product back as block t of the output. So entry (5000·t + r, q) of the
  output array ends at Σ_k left(5000·t + r, k) · right(k, q): the blocks tile the rows, and every entry of the output array is
  the entry of the whole product [50000,128]·[128,128] that the host's matrix product computes.
-/
import proofs.«173309_j15006615732583_1_alg».proof.Proof.Gen.KernelIdeal.Frame
import proofs.«173309_j15006615732583_1_alg».proof.Proof.LibRowOps
import proofs.«173309_j15006615732583_1_alg».proof.Proof.LibHostDot
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem zero_offset : (![0, 0] : Fin 2 → Nat) = fun _ => 0 := funext fun a => by fin_cases a <;> rfl

/-- The whole product [50000,128]·[128,128] as the host computes it (no batch axis; the left array's columns contracted
    with the right array's rows), for any witness `wf` of the shapes' fit. -/
def wholeProduct (wf : DotDims.WF S50000x128 S128x128 S50000x128 [1] [0] [0] [1] [] [])
    (A : S50000x128.Idx → Elt Ideal .f32) (B : S128x128.Idx → Elt Ideal .f32) : S50000x128.Idx → Elt Ideal .f32 :=
  Host.dotGeneral (F := Ideal) (φ₁ := .f32) (φ₂ := .f32) (⟨[1], [0], [0], [1], [], [], wf⟩ : DotDims S50000x128 S128x128 S50000x128) none A B

/-- The block index maps over the 10 grid points: the left and the output windows are at row block t, column block 0; the
    right window stays at block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- What the body stores, at (r, q) of the block: Σ_k left(r, k) · right(k, q). -/
theorem payload_apply (x0 : Vec Ideal S5000x128 .f32) (x1 : Vec Ideal S128x128 .f32) (r : Fin 5000) (q : Fin 128) :
    k0_pay1 x0 x1 (ix2 r q) = ∑ k : Fin 128, x0 (ix2 r k) * x1 (ix2 k q) := by
  unfold k0_pay1
  refine (Cert.RowOps.matmul_apply Cert.KernelIdeal.Facts₀.dot_S5000x128_S128x128_S5000x128_1_0_0_1_n_n_wf none _ _ r q).trans ?_
  refine Finset.sum_congr rfl fun k _ => ?_
  try simp only [shapeCast_self]
  rfl

/-- The left window's block at point t, at (r, k): the left array at row 5000·t + r. -/
theorem left_block (c : Dev nD) (t : Fin cfg0.N) (r : Fin 5000) (k : Fin 128) (P : Fin 50000) (hP : P.val = t.val * 5000 + r.val) :
    iblk0 V c 0 t (ix2 r k) = V c main_arg0 (ix2 P k) := by
  obtain ⟨e00, e01, -⟩ := block_index t
  show V c main_arg0 (((cfg0.win 0).blk t).view.emb (ix2 r k)) = V c main_arg0 (ix2 P k)
  refine congrArg (V c main_arg0) (funext fun a => Fin.ext ?_)
  match a with
  | ⟨0, _⟩ => show win0_0.index t (0 : Fin 2) * 5000 + 1 * r.val = P.val; omega
  | ⟨1, _⟩ => show win0_0.index t (1 : Fin 2) * 128 + 1 * k.val = k.val; omega

/-- The right window's block at any point is the whole right array. -/
theorem right_block (c : Dev nD) (t : Fin cfg0.N) (k : Fin 128) (q : Fin 128) :
    iblk0 V c 1 t (ix2 k q) = V c main_arg2 (ix2 k q) := by
  obtain ⟨-, -, e10, e11, -⟩ := block_index t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- At (r, q) of block t the body's product is the whole product's entry (5000·t + r, q). -/
theorem point_value (wf : DotDims.WF S50000x128 S128x128 S50000x128 [1] [0] [0] [1] [] []) (c : Dev nD) (t : Fin cfg0.N)
    (r : Fin 5000) (q : Fin 128) :
    k0_pay1 (iblk0 V c 0 t) (iblk0 V c 1 t) (ix2 r q)
      = wholeProduct wf (V c main_arg0) (V c main_arg2) (((cfg0.win 2).blk t).view.emb (ix2 r q)) := by
  obtain ⟨-, -, -, -, e20, e21⟩ := block_index t
  have ht : t.val < 10 := t.isLt
  have hr : r.val < 5000 := r.isLt
  have hemb : ((cfg0.win 2).blk t).view.emb (ix2 r q) = ix2 (⟨t.val * 5000 + r.val, by omega⟩ : Fin 50000) q :=
    funext fun a => Fin.ext (by
      match a with
      | ⟨0, _⟩ => show win0_2.index t (0 : Fin 2) * 5000 + 1 * r.val = t.val * 5000 + r.val; omega
      | ⟨1, _⟩ => show win0_2.index t (1 : Fin 2) * 128 + 1 * q.val = q.val; omega)
  rw [hemb]
  unfold wholeProduct
  refine (payload_apply (iblk0 V c 0 t) (iblk0 V c 1 t) r q).trans ?_
  refine Eq.trans ?_ (Cert.HostDot.hostDot_apply wf none (V c main_arg0) (V c main_arg2) ⟨t.val * 5000 + r.val, by omega⟩ q).symm
  refine Finset.sum_congr rfl fun k _ => ?_
  rw [left_block V c t r k ⟨t.val * 5000 + r.val, by omega⟩ rfl, right_block V c t k q]

/-- What point t writes back is block t of the whole product of the entry arrays. -/
theorem flushed_eq (wf : DotDims.WF S50000x128 S128x128 S50000x128 [1] [0] [0] [1] [] []) (c : Dev nD) (t : Fin cfg0.N) :
    (dat0 V c).flushed 2 t = ((cfg0.win 2).blk t).view.read (Elt Ideal) (wholeProduct wf (V c main_arg0) (V c main_arg2)) := by
  show (cfg0.win 2).cut (grid0.coords t) ((dat0 V c).after 2 t) = _
  rw [after0_2]
  unfold out0_2
  rw [View.canon_unit_zero zero_offset]
  simp only [View.ld_unit_zero (S := S5000x128) zero_offset, View.ld_unit_zero (S := S128x128) zero_offset]
  funext j
  have hj : j = ix2 (j 0) (j 1) := eq_ix2 j
  rw [hj]
  exact point_value V wf c t (j 0) (j 1)

/-- An index of the output array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every row of the output array is in the block of point (row / 5000). -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hlt : (i 0).val / 5000 < 10 := by omega
  obtain ⟨-, -, -, -, e20, e21⟩ := block_index (⟨(i 0).val / 5000, hlt⟩ : Fin cfg0.N)
  have e20' : win0_2.index (⟨(i 0).val / 5000, hlt⟩ : Fin cfg0.N) (0 : Fin 2) = (i 0).val / 5000 := e20
  refine ⟨⟨(i 0).val / 5000, hlt⟩, flush0_2 _, ?_⟩
  rw [mem_block]
  intro a
  match a with
  | ⟨0, _⟩ =>
    show win0_2.index (⟨(i 0).val / 5000, hlt⟩ : Fin cfg0.N) (0 : Fin 2) * 5000 ≤ (i 0).val ∧ (i 0).val < win0_2.index (⟨(i 0).val / 5000, hlt⟩ : Fin cfg0.N) (0 : Fin 2) * 5000 + 5000
    omega
  | ⟨1, _⟩ =>
    show win0_2.index (⟨(i 0).val / 5000, hlt⟩ : Fin cfg0.N) (1 : Fin 2) * 128 ≤ (i 1).val ∧ (i 1).val < win0_2.index (⟨(i 0).val / 5000, hlt⟩ : Fin cfg0.N) (1 : Fin 2) * 128 + 128
    omega

/-- The output array after the region: the whole product of the two arrays the region is entered with. -/
theorem region_value (wf : DotDims.WF S50000x128 S128x128 S50000x128 [1] [0] [0] [1] [] []) (c : Dev nD) :
    (dat0 V c).arrAt 2 cfg0.N = wholeProduct wf (V c main_arg0) (V c main_arg2) :=
  (dat0 V c).arrAt_eq_of_cover 2 (wholeProduct wf (V c main_arg0) (V c main_arg2)) (fun t _ => flushed_eq V wf c t) covered

end Cert.KernelIdeal.Region0

end
-- ==== Proof.Region1.lean ====
/-
  Region 1 (the second dense product) as one function of the arrays it is entered with.

  The pipeline walks the 50000 rows in 10 blocks of 5000. At block t the body multiplies rows 5000·t … 5000·t+4999 of the
  left array by the whole [128, 64] right array into a zero accumulator (the operands' change of format is the identity
  on the extended reals), and writes the [5000, 64] product back as block t of the output. So entry (5000·t + r, q) of the
  output array ends at Σ_k left(5000·t + r, k) · right(k, q): the blocks tile the rows, and every entry of the output array is
  the entry of the whole product [50000,128]·[128,64] that the host's matrix product computes.
-/
import proofs.«173309_j15006615732583_1_alg».proof.Proof.Gen.KernelIdeal.Frame
import proofs.«173309_j15006615732583_1_alg».proof.Proof.LibRowOps
import proofs.«173309_j15006615732583_1_alg».proof.Proof.LibHostDot
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem zero_offset : (![0, 0] : Fin 2 → Nat) = fun _ => 0 := funext fun a => by fin_cases a <;> rfl

/-- The whole product [50000,128]·[128,64] as the host computes it (no batch axis; the left array's columns contracted
    with the right array's rows), for any witness `wf` of the shapes' fit. -/
def wholeProduct (wf : DotDims.WF S50000x128 S128x64 S50000x64 [1] [0] [0] [1] [] [])
    (A : S50000x128.Idx → Elt Ideal .f32) (B : S128x64.Idx → Elt Ideal .f32) : S50000x64.Idx → Elt Ideal .f32 :=
  Host.dotGeneral (F := Ideal) (φ₁ := .f32) (φ₂ := .f32) (⟨[1], [0], [0], [1], [], [], wf⟩ : DotDims S50000x128 S128x64 S50000x64) none A B

/-- The block index maps over the 10 grid points: the left and the output windows are at row block t, column block 0; the
    right window stays at block (0, 0). -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-- What the body stores, at (r, q) of the block: Σ_k left(r, k) · right(k, q). -/
theorem payload_apply (x0 : Vec Ideal S5000x128 .f32) (x1 : Vec Ideal S128x64 .f32) (r : Fin 5000) (q : Fin 64) :
    k1_pay1 x0 x1 (ix2 r q) = ∑ k : Fin 128, x0 (ix2 r k) * x1 (ix2 k q) := by
  unfold k1_pay1
  refine (Cert.RowOps.matmul_apply Cert.KernelIdeal.Facts₀.dot_S5000x128_S128x64_S5000x64_1_0_0_1_n_n_wf none _ _ r q).trans ?_
  refine Finset.sum_congr rfl fun k _ => ?_
  try simp only [shapeCast_self]
  rfl

/-- The left window's block at point t, at (r, k): the left array at row 5000·t + r. -/
theorem left_block (c : Dev nD) (t : Fin cfg1.N) (r : Fin 5000) (k : Fin 128) (P : Fin 50000) (hP : P.val = t.val * 5000 + r.val) :
    iblk1 V c 0 t (ix2 r k) = V c main_v52 (ix2 P k) := by
  obtain ⟨e00, e01, -⟩ := block_index t
  show V c main_v52 (((cfg1.win 0).blk t).view.emb (ix2 r k)) = V c main_v52 (ix2 P k)
  refine congrArg (V c main_v52) (funext fun a => Fin.ext ?_)
  match a with
  | ⟨0, _⟩ => show win1_0.index t (0 : Fin 2) * 5000 + 1 * r.val = P.val; omega
  | ⟨1, _⟩ => show win1_0.index t (1 : Fin 2) * 128 + 1 * k.val = k.val; omega

/-- The right window's block at any point is the whole right array. -/
theorem right_block (c : Dev nD) (t : Fin cfg1.N) (k : Fin 128) (q : Fin 64) :
    iblk1 V c 1 t (ix2 k q) = V c main_arg4 (ix2 k q) := by
  obtain ⟨-, -, e10, e11, -⟩ := block_index t
  show V c main_arg4 (((cfg1.win 1).blk t).view.emb (ix2 k q)) = V c main_arg4 (ix2 k q)
  refine congrArg (V c main_arg4) (funext fun a => Fin.ext ?_)
  match a with
  | ⟨0, _⟩ => show win1_1.index t (0 : Fin 2) * 128 + 1 * k.val = k.val; omega
  | ⟨1, _⟩ => show win1_1.index t (1 : Fin 2) * 64 + 1 * q.val = q.val; omega

/-- At (r, q) of block t the body's product is the whole product's entry (5000·t + r, q). -/
theorem point_value (wf : DotDims.WF S50000x128 S128x64 S50000x64 [1] [0] [0] [1] [] []) (c : Dev nD) (t : Fin cfg1.N)
    (r : Fin 5000) (q : Fin 64) :
    k1_pay1 (iblk1 V c 0 t) (iblk1 V c 1 t) (ix2 r q)
      = wholeProduct wf (V c main_v52) (V c main_arg4) (((cfg1.win 2).blk t).view.emb (ix2 r q)) := by
  obtain ⟨-, -, -, -, e20, e21⟩ := block_index t
  have ht : t.val < 10 := t.isLt
  have hr : r.val < 5000 := r.isLt
  have hemb : ((cfg1.win 2).blk t).view.emb (ix2 r q) = ix2 (⟨t.val * 5000 + r.val, by omega⟩ : Fin 50000) q :=
    funext fun a => Fin.ext (by
      match a with
      | ⟨0, _⟩ => show win1_2.index t (0 : Fin 2) * 5000 + 1 * r.val = t.val * 5000 + r.val; omega
      | ⟨1, _⟩ => show win1_2.index t (1 : Fin 2) * 64 + 1 * q.val = q.val; omega)
  rw [hemb]
  unfold wholeProduct
  refine (payload_apply (iblk1 V c 0 t) (iblk1 V c 1 t) r q).trans ?_
  refine Eq.trans ?_ (Cert.HostDot.hostDot_apply wf none (V c main_v52) (V c main_arg4) ⟨t.val * 5000 + r.val, by omega⟩ q).symm
  refine Finset.sum_congr rfl fun k _ => ?_
  rw [left_block V c t r k ⟨t.val * 5000 + r.val, by omega⟩ rfl, right_block V c t k q]

/-- What point t writes back is block t of the whole product of the entry arrays. -/
theorem flushed_eq (wf : DotDims.WF S50000x128 S128x64 S50000x64 [1] [0] [0] [1] [] []) (c : Dev nD) (t : Fin cfg1.N) :
    (dat1 V c).flushed 2 t = ((cfg1.win 2).blk t).view.read (Elt Ideal) (wholeProduct wf (V c main_v52) (V c main_arg4)) := by
  show (cfg1.win 2).cut (grid1.coords t) ((dat1 V c).after 2 t) = _
  rw [after1_2]
  unfold out1_2
  rw [View.canon_unit_zero zero_offset]
  simp only [View.ld_unit_zero (S := S5000x128) zero_offset, View.ld_unit_zero (S := S128x64) zero_offset]
  funext j
  have hj : j = ix2 (j 0) (j 1) := eq_ix2 j
  rw [hj]
  exact point_value V wf c t (j 0) (j 1)

/-- An index of the output array is in point t's block iff each coordinate is in the block's range on its axis. -/
theorem mem_block (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v53).slice (win1_2.rect t)).set ↔ _
  rw [View.set_slice_whole, Rect.mem_set_unit]
  exact Iff.rfl

/-- Every row of the output array is in the block of point (row / 5000). -/
theorem covered (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hlt : (i 0).val / 5000 < 10 := by omega
  obtain ⟨-, -, -, -, e20, e21⟩ := block_index (⟨(i 0).val / 5000, hlt⟩ : Fin cfg1.N)
  have e20' : win1_2.index (⟨(i 0).val / 5000, hlt⟩ : Fin cfg1.N) (0 : Fin 2) = (i 0).val / 5000 := e20
  refine ⟨⟨(i 0).val / 5000, hlt⟩, flush1_2 _, ?_⟩
  rw [mem_block]
  intro a
  match a with
  | ⟨0, _⟩ =>
    show win1_2.index (⟨(i 0).val / 5000, hlt⟩ : Fin cfg1.N) (0 : Fin 2) * 5000 ≤ (i 0).val ∧ (i 0).val < win1_2.index (⟨(i 0).val / 5000, hlt⟩ : Fin cfg1.N) (0 : Fin 2) * 5000 + 5000
    omega
  | ⟨1, _⟩ =>
    show win1_2.index (⟨(i 0).val / 5000, hlt⟩ : Fin cfg1.N) (1 : Fin 2) * 64 ≤ (i 1).val ∧ (i 1).val < win1_2.index (⟨(i 0).val / 5000, hlt⟩ : Fin cfg1.N) (1 : Fin 2) * 64 + 64
    omega

/-- The output array after the region: the whole product of the two arrays the region is entered with. -/
theorem region_value (wf : DotDims.WF S50000x128 S128x64 S50000x64 [1] [0] [0] [1] [] []) (c : Dev nD) :
    (dat1 V c).arrAt 2 cfg1.N = wholeProduct wf (V c main_v52) (V c main_arg4) :=
  (dat1 V c).arrAt_eq_of_cover 2 (wholeProduct wf (V c main_v52) (V c main_arg4)) (fun t _ => flushed_eq V wf c t) covered

end Cert.KernelIdeal.Region1

end
-- ==== Proof.KernelValue.lean ====
/-
  The idealized kernel's result buffer as the specification's network.

  @main is three stretches of host operations, the first matrix-product region, a stretch, the second region, a last
  stretch. Reading the buffer contents boundary by boundary:
    * at the first region's entry the edge sources, destinations and weights are the specification's `src`, `dst`, `norm` of
      the edge array, and the argument arrays are as launched;
    * a region changes only its output array, which ends at the whole product of its two entry arrays; a host stretch
      changes only the buffers its operations write;
    * the stretch between the regions computes sigmoid(layer128(first product, …, b0)), the last one layer64(second
      product, …, b1), from the same sources, destinations and weights.
  Composed: the result is `netWith` over the two whole products.
-/
import proofs.«173309_j15006615732583_1_alg».proof.Proof.Gen.KernelIdeal.Frame
import proofs.«173309_j15006615732583_1_alg».proof.Proof.Spec
import proofs.«173309_j15006615732583_1_alg».proof.Proof.Region0
import proofs.«173309_j15006615732583_1_alg».proof.Proof.Region1
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

section AnyInstance

variable {F : FTy → Type} [FloatOps F]
variable (m : (ℓ : Loc nD τ sig) → Buf (Elt F) ℓ) (ρ : Dev nD → PrngReg)

/-! ## At the first region's entry -/

/-- The edges' source nodes. -/
theorem W3_src (c : Dev nD) : W3 m ρ c (Proc.devRef .tc main_v3) = Cert.GCN.src (m ((c : Thread nD τ).loc main_arg1)) := by
  dsimp only [W3, W2, W1, W0, hostOps0_2, hostOps0_1, hostOps0]
  after_results
  rfl

/-- The edges' destination nodes. -/
theorem W3_dst (c : Dev nD) : W3 m ρ c (Proc.devRef .tc main_v6) = Cert.GCN.dst (m ((c : Thread nD τ).loc main_arg1)) := by
  dsimp only [W3, W2, W1, W0, hostOps0_2, hostOps0_1, hostOps0]
  after_results
  rfl

set_option maxHeartbeats 4000000 in
/-- The edges' weights dinv[src]·dinv[dst]. -/
theorem W3_norm (c : Dev nD) : W3 m ρ c (Proc.devRef .tc main_v29) = Cert.GCN.norm (m ((c : Thread nD τ).loc main_arg1)) := by
  dsimp only [W3, W2, W1, W0, hostOps0_2, hostOps0_1, hostOps0]
  after_results_simp
  rfl

set_option maxHeartbeats 4000000 in
/-- No host operation writes argument 0. -/
theorem W3_arg0 (c : Dev nD) : W3 m ρ c (Proc.devRef .tc main_arg0) = m ((c : Thread nD τ).loc main_arg0) := by
  dsimp only [W3, W2, W1, W0, hostOps0_2, hostOps0_1, hostOps0]
  after_results_simp <;> rfl

set_option maxHeartbeats 4000000 in
/-- No host operation writes argument 2. -/
theorem W3_arg2 (c : Dev nD) : W3 m ρ c (Proc.devRef .tc main_arg2) = m ((c : Thread nD τ).loc main_arg2) := by
  dsimp only [W3, W2, W1, W0, hostOps0_2, hostOps0_1, hostOps0]
  after_results_simp <;> rfl

set_option maxHeartbeats 4000000 in
/-- No host operation writes argument 3. -/
theorem W3_arg3 (c : Dev nD) : W3 m ρ c (Proc.devRef .tc main_arg3) = m ((c : Thread nD τ).loc main_arg3) := by
  dsimp only [W3, W2, W1, W0, hostOps0_2, hostOps0_1, hostOps0]
  after_results_simp <;> rfl

set_option maxHeartbeats 4000000 in
/-- No host operation writes argument 4. -/
theorem W3_arg4 (c : Dev nD) : W3 m ρ c (Proc.devRef .tc main_arg4) = m ((c : Thread nD τ).loc main_arg4) := by
  dsimp only [W3, W2, W1, W0, hostOps0_2, hostOps0_1, hostOps0]
  after_results_simp <;> rfl

set_option maxHeartbeats 4000000 in
/-- No host operation writes argument 5. -/
theorem W3_arg5 (c : Dev nD) : W3 m ρ c (Proc.devRef .tc main_arg5) = m ((c : Thread nD τ).loc main_arg5) := by
  dsimp only [W3, W2, W1, W0, hostOps0_2, hostOps0_1, hostOps0]
  after_results_simp <;> rfl

/-! ## Across the first region: only its output array changes -/

theorem W4_src (c : Dev nD) : W4 m ρ c (Proc.devRef .tc main_v3) = Cert.GCN.src (m ((c : Thread nD τ).loc main_arg1)) :=
  (W4_of_ne m ρ c main_v3 (by decide)).trans (W3_src m ρ c)
theorem W4_dst (c : Dev nD) : W4 m ρ c (Proc.devRef .tc main_v6) = Cert.GCN.dst (m ((c : Thread nD τ).loc main_arg1)) :=
  (W4_of_ne m ρ c main_v6 (by decide)).trans (W3_dst m ρ c)
theorem W4_norm (c : Dev nD) : W4 m ρ c (Proc.devRef .tc main_v29) = Cert.GCN.norm (m ((c : Thread nD τ).loc main_arg1)) :=
  (W4_of_ne m ρ c main_v29 (by decide)).trans (W3_norm m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## The stretch between the regions -/

set_option maxHeartbeats 4000000 in
/-- The second region's left operand: sigmoid of the first layer's aggregation of the first region's output. -/
theorem W5_act (c : Dev nD) : W5 m ρ c (Proc.devRef .tc main_v52)
    = Cert.GCN.sigmoid (Cert.GCN.layer128 (W4 m ρ c (Proc.devRef .tc main_v30)) (W4 m ρ c (Proc.devRef .tc main_v3)) (W4 m ρ c (Proc.devRef .tc main_v6)) (W4 m ρ c (Proc.devRef .tc main_v29)) (W4 m ρ c (Proc.devRef .tc main_arg3))) := by
  dsimp only [W5, hostOps1]
  after_results_simp
  rfl

set_option maxHeartbeats 4000000 in
/-- The stretch between the regions does not write this buffer. -/
theorem W5_keep_src (c : Dev nD) : W5 m ρ c (Proc.devRef .tc main_v3) = W4 m ρ c (Proc.devRef .tc main_v3) := by
  dsimp only [W5, hostOps1]
  after_results_simp <;> rfl

set_option maxHeartbeats 4000000 in
/-- The stretch between the regions does not write this buffer. -/
theorem W5_keep_dst (c : Dev nD) : W5 m ρ c (Proc.devRef .tc main_v6) = W4 m ρ c (Proc.devRef .tc main_v6) := by
  dsimp only [W5, hostOps1]
  after_results_simp <;> rfl

set_option maxHeartbeats 4000000 in
/-- The stretch between the regions does not write this buffer. -/
theorem W5_keep_norm (c : Dev nD) : W5 m ρ c (Proc.devRef .tc main_v29) = W4 m ρ c (Proc.devRef .tc main_v29) := by
  dsimp only [W5, hostOps1]
  after_results_simp <;> rfl

set_option maxHeartbeats 4000000 in
/-- The stretch between the regions does not write this buffer. -/
theorem W5_keep_arg4 (c : Dev nD) : W5 m ρ c (Proc.devRef .tc main_arg4) = W4 m ρ c (Proc.devRef .tc main_arg4) := by
  dsimp only [W5, hostOps1]
  after_results_simp <;> rfl

set_option maxHeartbeats 4000000 in
/-- The stretch between the regions does not write this buffer. -/
theorem W5_keep_arg5 (c : Dev nD) : W5 m ρ c (Proc.devRef .tc main_arg5) = W4 m ρ c (Proc.devRef .tc main_arg5) := by
  dsimp only [W5, hostOps1]
  after_results_simp <;> rfl

theorem W5_src (c : Dev nD) : W5 m ρ c (Proc.devRef .tc main_v3) = Cert.GCN.src (m ((c : Thread nD τ).loc main_arg1)) :=
  (W5_keep_src m ρ c).trans (W4_src m ρ c)
theorem W5_dst (c : Dev nD) : W5 m ρ c (Proc.devRef .tc main_v6) = Cert.GCN.dst (m ((c : Thread nD τ).loc main_arg1)) :=
  (W5_keep_dst m ρ c).trans (W4_dst m ρ c)
theorem W5_norm (c : Dev nD) : W5 m ρ c (Proc.devRef .tc main_v29) = Cert.GCN.norm (m ((c : Thread nD τ).loc main_arg1)) :=
  (W5_keep_norm m ρ c).trans (W4_norm m ρ c)
theorem W5_arg4 (c : Dev nD) : W5 m ρ c (Proc.devRef .tc main_arg4) = m ((c : Thread nD τ).loc main_arg4) :=
  (W5_keep_arg4 m ρ c).trans (W4_arg4 m ρ c)
theorem W5_arg5 (c : Dev nD) : W5 m ρ c (Proc.devRef .tc main_arg5) = m ((c : Thread nD τ).loc main_arg5) :=
  (W5_keep_arg5 m ρ c).trans (W4_arg5 m ρ c)

/-! ## Across the second region -/

theorem W6_src (c : Dev nD) : W6 m ρ c (Proc.devRef .tc main_v3) = Cert.GCN.src (m ((c : Thread nD τ).loc main_arg1)) :=
  (W6_of_ne m ρ c main_v3 (by decide)).trans (W5_src m ρ c)
theorem W6_dst (c : Dev nD) : W6 m ρ c (Proc.devRef .tc main_v6) = Cert.GCN.dst (m ((c : Thread nD τ).loc main_arg1)) :=
  (W6_of_ne m ρ c main_v6 (by decide)).trans (W5_dst m ρ c)
theorem W6_norm (c : Dev nD) : W6 m ρ c (Proc.devRef .tc main_v29) = Cert.GCN.norm (m ((c : Thread nD τ).loc main_arg1)) :=
  (W6_of_ne m ρ c main_v29 (by decide)).trans (W5_norm m ρ c)
theorem W6_arg5 (c : Dev nD) : W6 m ρ c (Proc.devRef .tc main_arg5) = m ((c : Thread nD τ).loc main_arg5) :=
  (W6_of_ne m ρ c main_arg5 (by decide)).trans (W5_arg5 m ρ c)

/-! ## The last stretch -/

set_option maxHeartbeats 4000000 in
/-- The result: the second layer's aggregation of the second region's output. -/
theorem W7_out (c : Dev nD) : W7 m ρ c (Proc.devRef .tc main_v69)
    = Cert.GCN.layer64 (W6 m ρ c (Proc.devRef .tc main_v53)) (W6 m ρ c (Proc.devRef .tc main_v3)) (W6 m ρ c (Proc.devRef .tc main_v6)) (W6 m ρ c (Proc.devRef .tc main_v29)) (W6 m ρ c (Proc.devRef .tc main_arg5)) := by
  dsimp only [W7, hostOps2]
  after_results_simp
  rfl

end AnyInstance

/-! ## The result on the extended reals -/

section AtIdeal

variable (m : (ℓ : Loc nD τ sig) → Buf (Elt Ideal) ℓ) (ρ : Dev nD → PrngReg)
variable (wfA : DotDims.WF S50000x128 S128x128 S50000x128 [1] [0] [0] [1] [] [])
variable (wfB : DotDims.WF S50000x128 S128x64 S50000x64 [1] [0] [0] [1] [] [])

/-- The first region's output array: the whole product x·W0. -/
theorem W4_product (c : Dev nD) : W4 m ρ c (Proc.devRef .tc main_v30)
    = Region0.wholeProduct wfA (m ((c : Thread nD τ).loc main_arg0)) (m ((c : Thread nD τ).loc main_arg2)) :=
  (W4_arr m ρ c 2).trans ((Region0.region_value (V3 m ρ) wfA c).trans
    (congrArg₂ (Region0.wholeProduct wfA) (W3_arg0 m ρ c) (W3_arg2 m ρ c)))

/-- The second region's left operand: sigmoid(layer128(x·W0, b0)). -/
theorem W5_hidden (c : Dev nD) : W5 m ρ c (Proc.devRef .tc main_v52)
    = Cert.GCN.sigmoid (Cert.GCN.layer128 (Region0.wholeProduct wfA (m ((c : Thread nD τ).loc main_arg0)) (m ((c : Thread nD τ).loc main_arg2)))
        (Cert.GCN.src (m ((c : Thread nD τ).loc main_arg1))) (Cert.GCN.dst (m ((c : Thread nD τ).loc main_arg1)))
        (Cert.GCN.norm (m ((c : Thread nD τ).loc main_arg1))) (m ((c : Thread nD τ).loc main_arg3))) := by
  rw [W5_act, W4_product m ρ wfA, W4_src, W4_dst, W4_norm, W4_arg3]

/-- The second region's output array: the whole product of the hidden layer with W1. -/
theorem W6_product (c : Dev nD) : W6 m ρ c (Proc.devRef .tc main_v53)
    = Region1.wholeProduct wfB (Cert.GCN.sigmoid (Cert.GCN.layer128 (Region0.wholeProduct wfA (m ((c : Thread nD τ).loc main_arg0)) (m ((c : Thread nD τ).loc main_arg2)))
        (Cert.GCN.src (m ((c : Thread nD τ).loc main_arg1))) (Cert.GCN.dst (m ((c : Thread nD τ).loc main_arg1)))
        (Cert.GCN.norm (m ((c : Thread nD τ).loc main_arg1))) (m ((c : Thread nD τ).loc main_arg3)))) (m ((c : Thread nD τ).loc main_arg4)) :=
  (W6_arr m ρ c 2).trans ((Region1.region_value (V5 m ρ) wfB c).trans
    (congrArg₂ (Region1.wholeProduct wfB) (W5_hidden m ρ wfA c) (W5_arg4 m ρ c)))

/-- The result buffer at the last boundary is the network over the two whole products. -/
theorem result_value (c : Dev nD) : W7 m ρ c (Proc.devRef .tc main_v69)
    = Cert.GCN.netWith (Region0.wholeProduct wfA) (Region1.wholeProduct wfB)
        (m ((c : Thread nD τ).loc main_arg0))
        (Cert.GCN.src (m ((c : Thread nD τ).loc main_arg1))) (Cert.GCN.dst (m ((c : Thread nD τ).loc main_arg1)))
        (Cert.GCN.norm (m ((c : Thread nD τ).loc main_arg1)))
        (m ((c : Thread nD τ).loc main_arg2)) (m ((c : Thread nD τ).loc main_arg3))
        (m ((c : Thread nD τ).loc main_arg4)) (m ((c : Thread nD τ).loc main_arg5)) := by
  rw [W7_out, W6_product m ρ wfA wfB, W6_src, W6_dst, W6_norm, W6_arg5]
  rfl

end AtIdeal

end Cert.KernelIdeal.Fold

end
-- ==== Proof.lean ====
/-
  A two-layer graph-convolution network: the kernel's program against its jnp reference, over the extended reals.

  Both programs compute, from node features x [50000,128], an edge array [2,800000] and two layers' weights and biases,
      layer(sigmoid(layer(x·W0, b0))·W1, b1),
  where layer(H, b) adds, into row dst(e), row src(e) of H times dinv[src e]·dinv[dst e], over the 800000 edges and the
  50000 self loops, and then adds b to every row (Proof/Spec.lean). They differ in the two dense products only: the
  reference takes each as ONE host matrix product; the kernel's program takes each in a pallas_call over 10 row blocks of
  5000, each block multiplied by the whole right matrix into a zero accumulator after a change of format that is the
  identity on the extended reals. Entry by entry a block product and the whole product are the same sum over the 128
  contracted indices (Proof/Region0.lean, Proof/Region1.lean), and every other operation is the same operation applied in
  the same order (the reference computes the edge weights once per layer, the kernel's program once: the same term).
  No law of arithmetic beyond this identity of sums is used, so the precondition (finite inputs) is not opened.

  * the frames of the two kernel programs are the generated frame certificates; the reference's frame is its run with the
    result dropped;
  * the idealization rewrote no operation (`preserves` is `True`);
  * `algebraic`: the kernel's run ends with its result at the fold of its segments (Proof/KernelRun.lean), which is the
    specification's network over the two whole products (Proof/KernelValue.lean); the reference's run ends with its result
    at its composed term (Proof/ReferenceRun.lean), which is the same network (Proof/RefValue.lean), the arguments agreeing.
-/
import proofs.«173309_j15006615732583_1_alg».proof.Defs
import proofs.«173309_j15006615732583_1_alg».proof.Proof.Gen.Kernel
import proofs.«173309_j15006615732583_1_alg».proof.Proof.Gen.Kernel.Skeleton
import proofs.«173309_j15006615732583_1_alg».proof.Proof.Gen.Kernel.Launch
import proofs.«173309_j15006615732583_1_alg».proof.Proof.Gen.Kernel.Points
import proofs.«173309_j15006615732583_1_alg».proof.Proof.Gen.Kernel.Frame
import proofs.«173309_j15006615732583_1_alg».proof.Proof.Gen.KernelIdeal
import proofs.«173309_j15006615732583_1_alg».proof.Proof.Gen.KernelIdeal.Skeleton
import proofs.«173309_j15006615732583_1_alg».proof.Proof.Gen.KernelIdeal.Launch
import proofs.«173309_j15006615732583_1_alg».proof.Proof.Gen.KernelIdeal.Points
import proofs.«173309_j15006615732583_1_alg».proof.Proof.Gen.KernelIdeal.Frame
import proofs.«173309_j15006615732583_1_alg».proof.Proof.Gen.ReferenceIdeal
import proofs.«173309_j15006615732583_1_alg».proof.Proof.Gen.Pre_finite_inputs
import proofs.«173309_j15006615732583_1_alg».proof.Proof.ReferenceRun
import proofs.«173309_j15006615732583_1_alg».proof.Proof.RefValue
import proofs.«173309_j15006615732583_1_alg».proof.Proof.KernelRun
import proofs.«173309_j15006615732583_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The common result: the network over the two whole products, of the kernel program's argument arrays. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v69) :=
  Cert.GCN.netWith
    (Cert.KernelIdeal.Region0.wholeProduct Cert.ReferenceIdeal.Facts₀.dot_S50000x128_S128x128_S50000x128_1_0_0_1_n_n_wf)
    (Cert.KernelIdeal.Region1.wholeProduct Cert.ReferenceIdeal.Facts₀.dot_S50000x128_S128x64_S50000x64_1_0_0_1_n_n_wf)
    (m ((c.tc : Thread Cert.KernelIdeal.nD Cert.KernelIdeal.τ).loc Cert.KernelIdeal.main_arg0))
    (Cert.GCN.src (m ((c.tc : Thread Cert.KernelIdeal.nD Cert.KernelIdeal.τ).loc Cert.KernelIdeal.main_arg1)))
    (Cert.GCN.dst (m ((c.tc : Thread Cert.KernelIdeal.nD Cert.KernelIdeal.τ).loc Cert.KernelIdeal.main_arg1)))
    (Cert.GCN.norm (m ((c.tc : Thread Cert.KernelIdeal.nD Cert.KernelIdeal.τ).loc Cert.KernelIdeal.main_arg1)))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The kernel program's run ends with its result at the common result. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v69) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun r h c => ⟨(h c).1.trans (Cert.KernelIdeal.Fold.result_value m ρ _ _ c), (h c).2⟩)
    (Cert.KernelIdeal.RunValue.run_result (F := Ideal) m ρ)

/-- Both idealized programs run, from memories that agree on the arguments, to the common result. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5⟩ := hagree c
  rw [Cert.ReferenceIdeal.RefValue.result_eq m' c, h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
